-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.SqDistSpec.lean ====
import Idealize.ShloMosaic.PureOps.Ideal.Laws
import Idealize.ShloMosaic.Lib.ValueIdx
import Idealize.ShloMosaic.Lib.ValueLayout
import Idealize.ShloMosaic.Lib.Pipeline.Value

/-!
  Pairwise squared distances by the expansion |x − y|² = |x|² + |y|² − 2·⟨x, y⟩, clamped below at zero.

  For an [n, d] array `x` of n points and an [m, d] array `y` of m points, entry (p, q) of the result is
  `max ((Σₖ x(p,k)² + Σₖ y(q,k)²) − 2 · Σₖ x(p,k)·y(q,k)) 0` on the extended reals, the two constants kept as the
  float words they are printed with. Nothing here needs the inputs finite: both programs compute this very
  expression, grouped and ordered the same way, so no law of the extended reals beyond `0 + a = a` is used.

  Also here: the three layout steps a sum with `keepdims` takes through a vector unit, read at an index — a row
  sum, a column `[a] → [a, 1]`, and that column spread over `[a, b]`.
-/

open scoped BigOperators

noncomputable section

namespace Cert.SqDist

open Idealize.ShloMosaic Idealize.ShloMosaic.ValueIdx

/-! ## The function -/

/-- The squared norm of point `p`: the sum over the d coordinates of its squares. -/
def rowSq {n d : ℕ} (x : (⟨2, ![n, d]⟩ : Shape).Idx → EReal) (p : Fin n) : EReal :=
  ∑ k : Fin d, x (ix2 p k) * x (ix2 p k)

/-- The inner product of point `p` of `x` with point `q` of `y`. -/
def rowDot {n m d : ℕ} (x : (⟨2, ![n, d]⟩ : Shape).Idx → EReal) (y : (⟨2, ![m, d]⟩ : Shape).Idx → EReal)
    (p : Fin n) (q : Fin m) : EReal :=
  ∑ k : Fin d, x (ix2 p k) * y (ix2 q k)

/-- The factor of the cross term, as the float word both programs print for 2.0. -/
def two : EReal := Ideal.ofBits .f32 0x40000000#32

/-- The clamp's floor, as the float word both programs print for 0.0. -/
def floor0 : EReal := Ideal.ofBits .f32 0x00000000#32

/-- The clamped squared distance between point `p` of `x` and point `q` of `y`. -/
def distAt {n m d : ℕ} (x : (⟨2, ![n, d]⟩ : Shape).Idx → EReal) (y : (⟨2, ![m, d]⟩ : Shape).Idx → EReal)
    (p : Fin n) (q : Fin m) : EReal :=
  max (rowSq x p + rowSq y q - two * rowDot x y p q) floor0

/-- All n · m clamped squared distances, as an [n, m] array. -/
def dist {n m d : ℕ} (x : (⟨2, ![n, d]⟩ : Shape).Idx → EReal) (y : (⟨2, ![m, d]⟩ : Shape).Idx → EReal) :
    (⟨2, ![n, m]⟩ : Shape).Idx → EReal :=
  fun i => distAt x y (i 0) (i 1)

theorem dist_ix2 {n m d : ℕ} (x : (⟨2, ![n, d]⟩ : Shape).Idx → EReal) (y : (⟨2, ![m, d]⟩ : Shape).Idx → EReal)
    (p : Fin n) (q : Fin m) : dist x y (ix2 p q) = distAt x y p q := rfl

/-- The distance between two points depends only on the two rows read: if row `p` of `x` is row `p'` of `x'`, and row
    `q` of `y` is row `q'` of `y'`, the two distances are the same. This is what carries a block's entry to the whole
    arrays' entry. -/
theorem distAt_congr {n m n' m' d : ℕ}
    (x : (⟨2, ![n, d]⟩ : Shape).Idx → EReal) (y : (⟨2, ![m, d]⟩ : Shape).Idx → EReal)
    (x' : (⟨2, ![n', d]⟩ : Shape).Idx → EReal) (y' : (⟨2, ![m', d]⟩ : Shape).Idx → EReal)
    (p : Fin n) (q : Fin m) (p' : Fin n') (q' : Fin m')
    (hx : ∀ k : Fin d, x (ix2 p k) = x' (ix2 p' k)) (hy : ∀ k : Fin d, y (ix2 q k) = y' (ix2 q' k)) :
    distAt x y p q = distAt x' y' p' q' := by
  unfold distAt rowSq rowDot
  simp only [hx, hy]

/-! ## A sum with keepdims, read at an index -/

variable {α : Type}

/-- A float lane sum of an [a, b] array along its second axis reads, at row `p`, the sum of that row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.SqDist

end
-- ==== Proof.KernelBlock.lean ====
import proofs.«156371_j55722905699254_1_alg».proof.Proof.Gen.KernelIdeal.Skeleton
import proofs.«156371_j55722905699254_1_alg».proof.Proof.LibPlainDot
import proofs.«156371_j55722905699254_1_alg».proof.Proof.SqDistSpec

/-!
  What the kernel body computes from one pair of blocks.

  At a grid point the body holds a [1024, 512] block `x0` of the query points and a [1024, 512] block `x1` of the
  source points, and stores a [1024, 1024] block. Entry (p, q) of what it stores is the clamped squared distance
  between row p of `x0` and row q of `x1`:

  * the column of squared norms of `x0` (a lane sum, cast to a column, spread over the 1024 columns) gives |x0(p)|²;
  * the same column for `x1`, transposed into a row and spread over the 1024 rows, gives |x1(q)|²;
  * the matrix product of `x0` with the transpose of `x1`, into a zero accumulator, gives ⟨x0(p), x1(q)⟩ — the
    narrowing of both operands to bf16 before the product is the identity on the extended reals.
-/

open scoped BigOperators

noncomputable section

namespace Cert.KernelIdeal.Block

open Cert.KernelIdeal Cert.KernelIdeal.Gen Idealize.ShloMosaic Idealize.ShloMosaic.ValueIdx Cert.SqDist

/-- The column of a block's squared norms, spread over the columns, at (p, q): the squared norm of row p. -/
theorem sqCol_apply (x : Vec Ideal S1024x512 .f32) (p q : Fin 1024) :
    broadcastTo S1024x1024 (shapeCast S1024x1 (multiReduction (F := Ideal) .add [1] S1024 (mulf x x) 0x00000000#32
      reduces_S1024x512_S1024 (.inl rfl) rfl) shapeCasts_S1024_S1024x1) broadcasts_S1024x1_S1024x1024 (ix2 p q)
      = rowSq x p :=
  (broadcastTo_a1_ab_apply _ broadcasts_S1024x1_S1024x1024 p q).trans
    ((shapeCast_a_a1_apply _ shapeCasts_S1024_S1024x1 p 0).trans
      (rowSum_apply (mulf x x) 0x00000000#32 reduces_S1024x512_S1024 (.inl rfl) rfl p))

/-- The same column turned into a row and spread over the rows, at (p, q): the squared norm of row q. -/
theorem sqRow_apply (x : Vec Ideal S1024x512 .f32) (p q : Fin 1024) :
    broadcastTo S1024x1024 (transpose S1x1024 [1, 0] (shapeCast S1024x1 (multiReduction (F := Ideal) .add [1] S1024 (mulf x x) 0x00000000#32
      reduces_S1024x512_S1024 (.inl rfl) rfl) shapeCasts_S1024_S1024x1) transposes_S1024x1_p1_0_S1x1024)
      broadcasts_S1x1024_S1024x1024 (ix2 p q)
      = rowSq x q :=
  (broadcastTo_1b_ab_apply _ broadcasts_S1x1024_S1024x1024 p q).trans
    ((transpose_ix2_apply _ transposes_S1024x1_p1_0_S1x1024 (0 : Fin 1) q).trans
      ((shapeCast_a_a1_apply _ shapeCasts_S1024_S1024x1 q 0).trans
        (rowSum_apply (mulf x x) 0x00000000#32 reduces_S1024x512_S1024 (.inl rfl) rfl q)))

/-- The product of one block with the other's transpose, into zeros, at (p, q): the inner product of row p of the
    first with row q of the second. Narrowing to bf16 changes no extended real. -/
theorem cross_apply (x0 x1 : Vec Ideal S1024x512 .f32) (p q : Fin 1024) :
    matmul (F := Ideal) dot_S1024x512_S512x1024_S1024x1024_1_0_0_1_n_n none (truncf .bf16 x0 bitsLt_bf16_f32)
      (transpose S512x1024 [1, 0] (truncf .bf16 x1 bitsLt_bf16_f32) transposes_S1024x512_p1_0_S512x1024)
      (constant (F := Ideal) S1024x1024 .f32 0x00000000#32) (ix2 p q)
      = rowDot x0 x1 p q :=
  (Cert.Lib.PlainDot.matmul_zero_apply dot_S1024x512_S512x1024_S1024x1024_1_0_0_1_n_n rfl rfl rfl rfl rfl rfl none
      (truncf .bf16 x0 bitsLt_bf16_f32)
      (transpose S512x1024 [1, 0] (truncf .bf16 x1 bitsLt_bf16_f32) transposes_S1024x512_p1_0_S512x1024) p q).trans
    (Finset.sum_congr rfl fun k _ =>
      congrArg (x0 (ix2 p k) * ·)
        ((transpose_ix2_apply (a := 1024) (b := 512) (truncf (F := Ideal) .bf16 x1 bitsLt_bf16_f32)
            transposes_S1024x512_p1_0_S512x1024 k q).trans
          (truncf_apply (ψ := .bf16) x1 bitsLt_bf16_f32 (ix2 q k))))

/-- THE BLOCK: entry (p, q) of what the body stores is the clamped squared distance between row p of the query
    block and row q of the source block. -/
theorem pay_apply (x0 x1 : Vec Ideal S1024x512 .f32) (p q : Fin 1024) :
    k0_pay1 (F := Ideal) x0 x1 (ix2 p q) = distAt x0 x1 p q := by
  unfold k0_pay1
  simp only [maximumf_apply, subf_apply, addf_apply, mulf_apply, broadcast_apply]
  rw [sqCol_apply x0 p q, sqRow_apply x1 p q, cross_apply x0 x1 p q]
  rfl

end Cert.KernelIdeal.Block

end
-- ==== Proof.KernelArray.lean ====
import proofs.«156371_j55722905699254_1_alg».proof.Proof.Gen.KernelIdeal.Value
import proofs.«156371_j55722905699254_1_alg».proof.Proof.KernelBlock

/-!
  From the kernel's blocks to its result array.

  The grid has 8 × 8 points. Point (i, j) reads rows 1024·i … 1024·i + 1023 of the query array and rows
  1024·j … 1024·j + 1023 of the source array, and writes back the [1024, 1024] block of the result at block index
  (i, j). Entry (p, q) of that block is the clamped squared distance between row p of the one block and row q of the
  other, that is, between query point 1024·i + p and source point 1024·j + q: the block is the restriction of the
  whole array of distances. The 64 blocks tile the [8192, 8192] result (entry (P, Q) lies in the block of point
  (P / 1024, Q / 1024)), so after the run the result array IS the array of all clamped squared distances.
-/

noncomputable section

namespace Cert.KernelIdeal.Whole

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

/-- The body's loads and its store start at the origin of their buffers. -/
theorem origin_eq : (![0, 0] : Fin 2 → Nat) = fun _ => 0 := funext fun a => by fin_cases a <;> rfl

/-- The three index maps over the grid: the query block follows the result block's row index, the source block its
    column index, both at coordinate block 0; the result's block indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 result blocks is some point's. -/
theorem idx_onto : ∀ (b0 : Fin 8) (b1 : Fin 8), ∃ t : Fin cfg0.N, win0_2.index t = ![b0.val, b1.val] :=
  (by decide +kernel : ∀ (b0 : Fin 8) (b1 : Fin 8), ∃ t : Fin grid0.N, win0_2.index t = ![b0.val, b1.val])

/-- WHAT POINT `t` WRITES BACK is block `t` of the array of all clamped squared distances between the query and
    source arrays as the region finds them. -/
theorem flushed_eq (c : Dev nD) (t : Fin cfg0.N) :
    (dats m 0 c).flushed 2 t
      = ((cfg0.win 2).blk t).view.read (Elt Ideal) (dist (V m c main_arg0) (V m c main_arg1)) := by
  rw [Value.flushed2]
  unfold out0_2
  rw [View.canon_unit_zero origin_eq]
  simp only [View.ld_unit_zero (S := S1024x512) origin_eq]
  obtain ⟨e0, e1, e2, e3, e4, e5⟩ := idx_facts t
  funext j
  obtain ⟨p, q, rfl⟩ : ∃ (p : Fin 1024) (q : Fin 1024), j = ix2 p q := ⟨j 0, j 1, eq_ix2 j⟩
  -- the query point and the source point this entry is about
  obtain ⟨P, hP⟩ : ∃ P : Fin 8192, P.val = win0_2.index t (0 : Fin 2) * 1024 + p.val :=
    ⟨⟨win0_2.index t (0 : Fin 2) * 1024 + p.val, by have := p.isLt; omega⟩, rfl⟩
  obtain ⟨Q, hQ⟩ : ∃ Q : Fin 8192, Q.val = win0_2.index t (1 : Fin 2) * 1024 + q.val :=
    ⟨⟨win0_2.index t (1 : Fin 2) * 1024 + q.val, by have := q.isLt; omega⟩, rfl⟩
  have hemb : ((cfg0.win 2).blk t).view.emb (ix2 p q) = ix2 P Q := by
    funext a; apply Fin.ext
    match a with
    | ⟨0, _⟩ => show win0_2.index t (0 : Fin 2) * 1024 + 1 * p.val = P.val; omega
    | ⟨1, _⟩ => show win0_2.index t (1 : Fin 2) * 1024 + 1 * q.val = Q.val; omega
  -- row p of the query block is row P of the query array
  have h0 : ∀ k : Fin 512, iblk m c 0 t (ix2 p k) = V m c main_arg0 (ix2 P k) := fun k => by
    show V m c main_arg0 (((cfg0.win 0).blk t).view.emb (ix2 p k)) = V m c main_arg0 (ix2 P k)
    refine congrArg (V m c main_arg0) (funext fun a => Fin.ext ?_)
    match a with
    | ⟨0, _⟩ => show win0_0.index t (0 : Fin 2) * 1024 + 1 * p.val = P.val; omega
    | ⟨1, _⟩ => show win0_0.index t (1 : Fin 2) * 512 + 1 * k.val = k.val; omega
  -- row q of the source block is row Q of the source array
  have h1 : ∀ k : Fin 512, iblk m c 1 t (ix2 q k) = V m c main_arg1 (ix2 Q k) := fun k => by
    show V m c main_arg1 (((cfg0.win 1).blk t).view.emb (ix2 q k)) = V m c main_arg1 (ix2 Q k)
    refine congrArg (V m c main_arg1) (funext fun a => Fin.ext ?_)
    match a with
    | ⟨0, _⟩ => show win0_1.index t (0 : Fin 2) * 1024 + 1 * q.val = Q.val; omega
    | ⟨1, _⟩ => show win0_1.index t (1 : Fin 2) * 512 + 1 * k.val = k.val; omega
  show k0_pay1 (F := Ideal) (iblk m c 0 t) (iblk m c 1 t) (ix2 p q)
    = dist (V m c main_arg0) (V m c main_arg1) (((cfg0.win 2).blk t).view.emb (ix2 p q))
  rw [hemb, dist_ix2]
  refine (Block.pay_apply (iblk m c 0 t) (iblk m c 1 t) p q).trans ?_
  exact distAt_congr (n := 1024) (m := 1024) (n' := 8192) (m' := 8192) (d := 512)
    (iblk m c 0 t) (iblk m c 1 t) (V m c main_arg0) (V m c main_arg1) p q P Q h0 h1

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE BLOCKS COVER THE RESULT: entry (P, Q) lies in the block of the point with block index (P / 1024, Q / 1024). -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have b0 : win0_2.index t (0 : Fin 2) = (i 0).val / 1024 := congrFun ht 0
  have b1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run: all clamped squared distances between the query and source arrays as launched. -/
theorem final (c : Dev nD) :
    (dats m 0 c).arrAt 2 cfg0.N
      = dist (m ((c : Thread nD τ).loc main_arg0)) (m ((c : Thread nD τ).loc main_arg1)) :=
  (dats m 0 c).arrAt_eq_of_cover 2 (dist (V m c main_arg0) (V m c main_arg1)) (fun t _ => flushed_eq m c t) cover

/-- The kernel's run, read: the result array at the array of distances, the arguments unchanged. -/
theorem run : θ_run defs (onTc (τ := τ) (main (F := Ideal))) ⟨m, fun _ => 0, ρ⟩ fun r => ∀ c : Dev nD,
      r.2.mem ((c : Thread nD τ).loc main_v0)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefArray.lean ====
import proofs.«156371_j55722905699254_1_alg».proof.Proof.Gen.ReferenceIdeal.Read
import proofs.«156371_j55722905699254_1_alg».proof.Proof.SqDistSpec

/-!
  The reference, read at an index.

  The reference forms the column of the query points' squared norms and the row of the source points' squared
  norms (each a host sum from a zero initial value, re-laid by broadcasts), adds them over the [8192, 8192] grid,
  subtracts twice the product of the query array with the source array contracted on the coordinate axis, and
  clamps at zero. Read at entry (p, q) through the stage lemmas, one operation at a time, that is the clamped squared
  distance between query point p and source point q; the only arithmetic used is `0 + a = a` for the sums' initial
  value.
-/

open scoped BigOperators

noncomputable section

namespace Cert.ReferenceIdeal.RefValue

open Cert.ReferenceIdeal Cert.ReferenceIdeal.Read Idealize.ShloMosaic Idealize.ShloMosaic.ValueIdx Cert.SqDist

/-- The query-norm column, followed back through its two broadcasts and the sum, reads row p of the query array. -/
theorem idx_q (p q : Fin 8192) (k : Fin 512) : idx_main_v1 (idx_main_v2 (idx_main_v7 (ix2 p q))) k = ix2 p k :=
  funext fun a => Fin.ext (by match a with | ⟨0, _⟩ => rfl | ⟨1, _⟩ => rfl)

/-- The source-norm row, followed back through its two broadcasts and the sum, reads row q of the source array. -/
theorem idx_s (p q : Fin 8192) (k : Fin 512) : idx_main_v4 (idx_main_v5 (idx_main_v8 (ix2 p q))) k = ix2 q k :=
  funext fun a => Fin.ext (by match a with | ⟨0, _⟩ => rfl | ⟨1, _⟩ => rfl)

/-- The contraction reads row p of its left operand -/
theorem idx_l (p q : Fin 8192) (k : Fin 512) : lidx_main_v6 (ix2 p q) k = ix2 p k :=
  funext fun a => Fin.ext (by match a with | ⟨0, _⟩ => rfl | ⟨1, _⟩ => rfl)

/-- and row q of its right operand. -/
theorem idx_r (p q : Fin 8192) (k : Fin 512) : ridx_main_v6 (ix2 p q) k = ix2 q k :=
  funext fun a => Fin.ext (by match a with | ⟨0, _⟩ => rfl | ⟨1, _⟩ => rfl)

/-- Entry (p, q) of the reference's result is the clamped squared distance between query point p and source point q. -/
theorem ref_apply (x0 x1 : (⟨S8192x512, .f32⟩ : BufTy).Contents (Elt Ideal)) (p q : Fin 8192) :
    val_main_v14 (F := Ideal) x0 x1 (ix2 p q) = distAt x0 x1 p q := by
  rw [val_main_v14_apply, val_main_v12_apply, val_main_v9_apply, val_main_v7_apply, val_main_v2_apply, val_main_v1_apply,
    val_main_v8_apply, val_main_v5_apply, val_main_v4_apply, val_main_v11_apply, val_main_v10_apply, val_main_v6_apply,
    val_main_v13_apply]
  unfold distAt rowSq rowDot two floor0
  simp only [idx_q, idx_s, idx_l, idx_r, val_main_v0_apply, val_main_v3_apply, val_main_cst_apply, val_main_cst_0_apply,
    val_main_cst_1_apply, val_main_cst_2_apply, Ideal.maximumf_def, Ideal.subf_def, Ideal.addf_def, Ideal.mulf_def,
    Ideal.ofBits_def, Ideal.ofBits_zero_f32, zero_add]

/-- THE REFERENCE'S RESULT is the array of all clamped squared distances. -/
theorem ref_eq (x0 x1 : (⟨S8192x512, .f32⟩ : BufTy).Contents (Elt Ideal)) :
    val_main_v14 (F := Ideal) x0 x1 = dist x0 x1 := by
  funext i
  obtain ⟨p, q, rfl⟩ : ∃ (p : Fin 8192) (q : Fin 8192), i = ix2 p q := ⟨i 0, i 1, eq_ix2 i⟩
  exact ref_apply x0 x1 p q

end Cert.ReferenceIdeal.RefValue

end
-- ==== Proof.lean ====
/-
  Pairwise squared distances: a tiled kernel against the plain formula.

  Inputs: 8192 query points and 8192 source points in 512 coordinates, as two [8192, 512] arrays. Result: the
  [8192, 8192] array whose entry (P, Q) is max(|query P|² + |source Q|² − 2·⟨query P, source Q⟩, 0).

  The kernel tiles the result into 8 × 8 blocks of [1024, 1024]. For each block it loads the 1024 query rows and the
  1024 source rows concerned, sums the squares along each row, takes the matrix product of the query block with the
  transposed source block (operands narrowed to bf16, accumulated from zero), and stores max(q² + s² − 2·cross, 0).
  The reference forms the same three terms over the whole arrays with host sums and one contraction.

  Over the extended reals a change of float format is the identity, a lane sum and a host sum from zero are the plain
  finite sum, and a matrix product into zeros is the plain sum of products; both programs group the three terms the
  same way, `(q² + s²) − 2·cross`, with the same two float words for 2 and 0. So entry by entry both results are one
  and the same expression, `Cert.SqDist.distAt`, and no appeal to the inputs being finite is made.

  * Proof/SqDistSpec.lean   — the expression, and a keepdims row sum read at an index;
  * Proof/LibPlainDot.lean  — a plain matrix product read at an entry is the sum of products;
  * Proof/KernelBlock.lean  — what the kernel body stores, entry by entry, from one pair of blocks;
  * Proof/KernelArray.lean  — a block is a restriction of the whole array of distances, the 64 blocks tile the
                              result, hence the kernel's result array;
  * Proof/RefArray.lean     — the reference's result, entry by entry.

  The two kernel frames are the generated class-A frames; the reference's frame is its run with the result dropped;
  the idealization rewrote no operation, so there is nothing to preserve.
-/
import proofs.«156371_j55722905699254_1_alg».proof.Defs
import proofs.«156371_j55722905699254_1_alg».proof.Proof.Gen.Kernel
import proofs.«156371_j55722905699254_1_alg».proof.Proof.Gen.Kernel.Skeleton
import proofs.«156371_j55722905699254_1_alg».proof.Proof.Gen.Kernel.Launch
import proofs.«156371_j55722905699254_1_alg».proof.Proof.Gen.Kernel.Points
import proofs.«156371_j55722905699254_1_alg».proof.Proof.Gen.Kernel.Frame
import proofs.«156371_j55722905699254_1_alg».proof.Proof.Gen.KernelIdeal
import proofs.«156371_j55722905699254_1_alg».proof.Proof.Gen.KernelIdeal.Skeleton
import proofs.«156371_j55722905699254_1_alg».proof.Proof.Gen.KernelIdeal.Launch
import proofs.«156371_j55722905699254_1_alg».proof.Proof.Gen.KernelIdeal.Points
import proofs.«156371_j55722905699254_1_alg».proof.Proof.Gen.KernelIdeal.Frame
import proofs.«156371_j55722905699254_1_alg».proof.Proof.Gen.ReferenceIdeal
import proofs.«156371_j55722905699254_1_alg».proof.Proof.Gen.Pre_finite_inputs
import proofs.«156371_j55722905699254_1_alg».proof.Proof.Gen.KernelIdeal.Value
import proofs.«156371_j55722905699254_1_alg».proof.Proof.Gen.ReferenceIdeal.Run
import proofs.«156371_j55722905699254_1_alg».proof.Proof.Gen.ReferenceIdeal.Read
import proofs.«156371_j55722905699254_1_alg».proof.Proof.KernelArray
import proofs.«156371_j55722905699254_1_alg».proof.Proof.RefArray
import Idealize.ShloMosaic.Adequacy
import Idealize.ShloMosaic.Init

noncomputable section

namespace Cert.Proof

open Idealize.ShloMosaic Idealize.ShloMosaic.TcCoe Idealize.SL.Sem

/-- The kernel as printed runs to the end without a fault and leaves both point arrays as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- The reference runs to the end and leaves both point arrays as they were: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Over the extended reals, from memories that agree on the two point arrays, the kernel and the reference both end
    with the array of all clamped squared distances: the kernel block by block, the reference in one piece. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.SqDist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq (F := Ideal) _ _).trans (Cert.ReferenceIdeal.RefValue.ref_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
